-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x512 : Shape := ⟨2, ![4096, 512]⟩
abbrev S512 : Shape := ⟨1, ![512]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S16384x4096 .f32) (main_arg1 : FVec F S4096x512 .f32) (main_arg2 : FVec F S512 .f32) (main_arg3 : FVec F S4096x512 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Kernel.lean ====
abbrev S16384x4096 : Shape := ⟨2, ![16384, 4096]⟩
abbrev S4096x512 : Shape := ⟨2, ![4096, 512]⟩
abbrev S512 : Shape := ⟨1, ![512]⟩
abbrev S1x512 : Shape := ⟨2, ![1, 512]⟩
abbrev S256x4096 : Shape := ⟨2, ![256, 4096]⟩
abbrev S256x512 : Shape := ⟨2, ![256, 512]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x512, .f32⟩
  | .hbm, ⟨2, _⟩ => ⟨S512, .f32⟩
  | .hbm, ⟨3, _⟩ => ⟨S4096x512, .f32⟩
  | .hbm, ⟨4, _⟩ => ⟨S4096x512, .bf16⟩
  | .hbm, ⟨5, _⟩ => ⟨S4096x512, .bf16⟩
  | .hbm, ⟨6, _⟩ => ⟨S1x512, .f32⟩
  | .hbm, ⟨7, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S256x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S512_S1x512 : S512.ShapeCasts S1x512
  inb_S256x4096_S256x4096_0_0 : ∀ a, (![0, 0] : Fin 2 → Nat) a + S256x4096.size a ≤ S256x4096.size a
  h_S256x4096 : 0 < S256x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x4096_S4096x512_S256x512_1_0_0_1_n_n_wf : DotDims.WF S256x4096 S4096x512 S256x512 [1] [0] [0] [1] [] []
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x512 : Shape := ⟨2, ![4096, 512]⟩
abbrev S512 : Shape := ⟨1, ![512]⟩
abbrev S1x512 : Shape := ⟨2, ![1, 512]⟩
abbrev S512x4096 : Shape := ⟨2, ![512, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x512, .f32⟩
  | .hbm, ⟨2, _⟩ => ⟨S512, .f32⟩
  | .hbm, ⟨3, _⟩ => ⟨S4096x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S512x4096, .f32⟩
  | .hbm, ⟨8, _⟩ => ⟨S4096x4096, .f32⟩
  | .hbm, ⟨9, _⟩ => ⟨S4096x4096, .f32⟩
  | .hbm, ⟨10, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x512_S512x4096_1_0 : S4096x512.Transposes [1, 0] S512x4096
  transposes_S4096x4096_S4096x4096_1_0 : S4096x4096.Transposes [1, 0] S4096x4096
  dot_S4096x512_S512x4096_S4096x4096_1_0_0_1_n_n_wf : DotDims.WF S4096x512 S512x4096 S4096x4096 [1] [0] [0] [1] [] []
  dot_S16384x4096_S4096x4096_S16384x4096_1_0_0_1_n_n_wf : DotDims.WF S16384x4096 S4096x4096 S16384x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Spec.lean ====
/-
  What both programs compute, as functions of the four argument arrays, index by index, on the extended reals.

  The operator is x ↦ x · Wᵀ with W = U · diag(σ) · Vᵀ of rank 512: x is [16384, 4096] (tokens by input features),
  U and V are [4096, 512], σ is [512]. Entry (t, o) of the result is the double sum over d < 4096 and r < 512 of
  x[t, d] · V[d, r] · σ[r] · U[o, r]. The two programs group it differently:

    factored  (t, o) = Σ_r ((Σ_d x[t, d] · V[d, r]) · σ[r]) · U[o, r]      project onto the 512 factors, scale, expand
    dense     (t, o) = Σ_d x[t, d] · (Σ_r (U[o, r] · σ[r]) · V[d, r])      form W[o, d] first, then one product

  On the reals the two agree: multiplication distributes over each finite sum and the two sums commute. On the extended
  reals distributivity can fail at the infinities, so the law is stated for arrays every entry of which is a real number.
-/
import Idealize.ShloMosaic.PureOps.Ideal
import Idealize.ShloMosaic.Lib.ValueIdx

noncomputable section

open scoped BigOperators

namespace Cert.LowRank

open Idealize.ShloMosaic Idealize.ShloMosaic.ValueIdx

/-- Tokens by features: the shape of x and of the result. -/
abbrev STok : Shape := ⟨2, ![16384, 4096]⟩
/-- Features by factors: the shape of U and of V. -/
abbrev SFac : Shape := ⟨2, ![4096, 512]⟩
/-- The factors: the shape of σ. -/
abbrev SSig : Shape := ⟨1, ![512]⟩

/-- Project a token's row onto the factors, scale by σ, expand by U. -/
def factored (x : STok.Idx → EReal) (u : SFac.Idx → EReal) (s : SSig.Idx → EReal) (v : SFac.Idx → EReal) : STok.Idx → EReal :=
  fun i => ∑ r : Fin 512, ((∑ d : Fin 4096, x (ix2 (i 0) d) * v (ix2 d r)) * s (ix1 r)) * u (ix2 (i 1) r)

/-- Form W[o, d] = Σ_r (U[o, r] · σ[r]) · V[d, r], then x · Wᵀ. -/
def dense (x : STok.Idx → EReal) (u : SFac.Idx → EReal) (s : SSig.Idx → EReal) (v : SFac.Idx → EReal) : STok.Idx → EReal :=
  fun i => ∑ d : Fin 4096, x (ix2 (i 0) d) * (∑ r : Fin 512, (u (ix2 (i 1) r) * s (ix1 r)) * v (ix2 d r))

/-! ## The law, over any two finite index types -/

section Law
variable {ι κ : Type} [Fintype ι] [Fintype κ]

/-- The coercion of the reals into the extended reals commutes with a finite sum. -/
theorem coe_sum (f : ι → ℝ) (S : Finset ι) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- On the reals: Σ_r ((Σ_d a_d · b_dr) · s_r) · c_r = Σ_d a_d · Σ_r (c_r · s_r) · b_dr. Each side expands to the double
    sum of a_d · b_dr · s_r · c_r. -/
theorem regroup_real (a : ι → ℝ) (b : ι → κ → ℝ) (s c : κ → ℝ) :
    ∑ r, ((∑ d, a d * b d r) * s r) * c r = ∑ d, a d * ∑ r, (c r * s r) * b d r := by
  simp only [Finset.sum_mul, Finset.mul_sum]
  rw [Finset.sum_comm]
  exact Finset.sum_congr rfl fun d _ => Finset.sum_congr rfl fun r _ => by ring

/-- The same on the extended reals, for entries that are reals. -/
theorem regroup (a : ι → ℝ) (b : ι → κ → ℝ) (s c : κ → ℝ) :
    ∑ r, ((∑ d, (a d : EReal) * (b d r : EReal)) * (s r : EReal)) * (c r : EReal)
      = ∑ d, (a d : EReal) * ∑ r, ((c r : EReal) * (s r : EReal)) * (b d r : EReal) := by
  simp only [← EReal.coe_mul, coe_sum]
  exact congrArg _ (regroup_real a b s c)

end Law

/-- For arrays of reals the factored form is the dense one. -/
theorem factored_eq_dense (x : STok.Idx → EReal) (u : SFac.Idx → EReal) (s : SSig.Idx → EReal) (v : SFac.Idx → EReal)
    (hx : ∀ i, ∃ a : ℝ, x i = a) (hu : ∀ i, ∃ a : ℝ, u i = a) (hs : ∀ i, ∃ a : ℝ, s i = a) (hv : ∀ i, ∃ a : ℝ, v i = a) :
    factored x u s v = dense x u s v := by
  choose x' hx' using hx
  choose u' hu' using hu
  choose s' hs' using hs
  choose v' hv' using hv
  funext i
  unfold factored dense
  simp only [hx', hu', hs', hv']
  exact regroup (fun d : Fin 4096 => x' (ix2 (i 0) d)) (fun (d : Fin 4096) (r : Fin 512) => v' (ix2 d r)) (fun r : Fin 512 => s' (ix1 r))
    (fun r : Fin 512 => u' (ix2 (i 1) r))

end Cert.LowRank

end
-- ==== Proof.Finite.lean ====
/-
  The precondition read back. It states, for each of the four argument arrays, that every entry's absolute value is
  strictly below +∞ (the f32 pattern 0x7F800000), the four facts joined by "and". On the extended reals |x| = max x (-x),
  which is +∞ at both infinities, so |x| < +∞ says exactly that x is a real number.
-/
import proofs.«121391_j3453153706201_1_alg».proof.Pre_finite_inputs
import Idealize.ShloMosaic.PureOps.Ideal
import Idealize.ShloMosaic.Lib.ValueIdx
import Idealize.ShloMosaic.Lib.ReduceAll

noncomputable section

namespace Cert.Finite

open Idealize.ShloMosaic

/-- The f32 pattern with all exponent bits set and a zero fraction denotes +∞. -/
theorem inf_pattern : Ideal.ofBits .f32 0x7F800000#32 = (⊤ : EReal) := by
  simp [Ideal.ofBits, Ideal.ieee]

/-- An extended real whose absolute value is strictly below +∞ is a real. -/
theorem real_of_abs_lt_top (x : EReal) (h : Ideal.cmp .olt (max x (-x)) (⊤ : EReal) = 1#1) : ∃ a : ℝ, x = a := by
  induction x using EReal.rec with
  | bot => simp [Ideal.cmp] at h
  | top => simp [Ideal.cmp] at h
  | coe a => exact ⟨a, rfl⟩

/-- The same for one entry of an array compared against the broadcast pattern, as the precondition prints it. -/
theorem real_of_entry {s : Shape} (x : FVec Ideal s .f32) (hb : Cert.Pre_finite_inputs.S_.BroadcastsInDim s (![] : Fin 0 → Fin s.rank)) (i : s.Idx)
    (h : cmpf .olt (Host.absf x) (broadcastInDim s ![] hb (constant (F := Ideal) Cert.Pre_finite_inputs.S_ .f32 0x7F800000#32)) i = 1#1) :
    ∃ a : ℝ, x i = a := by
  apply real_of_abs_lt_top
  rw [← inf_pattern]
  exact h

instance : Subsingleton Cert.Pre_finite_inputs.S_.Idx := ⟨fun _ _ => funext fun d => d.elim0⟩

variable [Cert.Pre_finite_inputs.Facts]

/-- Under the precondition every entry of x, U, σ and V is a real number. -/
theorem reals_of_pre (x : FVec Ideal Cert.Pre_finite_inputs.S16384x4096 .f32) (u : FVec Ideal Cert.Pre_finite_inputs.S4096x512 .f32)
    (s : FVec Ideal Cert.Pre_finite_inputs.S512 .f32) (v : FVec Ideal Cert.Pre_finite_inputs.S4096x512 .f32)
    (h : Cert.Pre_finite_inputs.fn (F := Ideal) x u s v = fun _ => 1#1) :
    (∀ i, ∃ a : ℝ, x i = a) ∧ (∀ i, ∃ a : ℝ, u i = a) ∧ (∀ i, ∃ a : ℝ, s i = a) ∧ (∀ i, ∃ a : ℝ, v i = a) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx, hu⟩ := IntOp.andi_eq_one.1 h01
  exact ⟨fun i => real_of_entry x _ i (Host.reduce_andi_all _ _ _ _ _ hx i),
    fun i => real_of_entry u _ i (Host.reduce_andi_all _ _ _ _ _ hu i),
    fun i => real_of_entry s _ i (Host.reduce_andi_all _ _ _ _ _ h2 i),
    fun i => real_of_entry v _ i (Host.reduce_andi_all _ _ _ _ _ h3 i)⟩

end Cert.Finite

end
-- ==== Proof.Tile.lean ====
/-
  One tile of the kernel, read at an index. The body takes a [256, 4096] block of x, the whole of V and U (cast to bf16,
  which is the identity on the extended reals) and σ as a [1, 512] row, and stores

      tile (p, o) = Σ_r ((Σ_d xblk[p, d] · V[d, r]) · σ[0, r]) · U[o, r]

  by two matrix products into zero accumulators: the first contracts the 4096 input features (axis 1 of the block with
  axis 0 of V), the second contracts the 512 factors (axis 1 of the scaled projection with axis 1 of U, so U enters
  transposed). Each product read at an index is the plain sum over its one contracted coordinate.
-/
import proofs.«121391_j3453153706201_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The first product: the block's rows against the columns of V -/

theorem lhs_proj_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs_proj_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem rhs_proj_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem rhs_proj_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- Entry (p, r) of the projection is the sum over the input features d of block[p, d] · V[d, r]. -/
theorem proj_apply (l : FVec Ideal S256x4096 .bf16) (v : FVec Ideal S4096x512 .bf16) (p : Fin 256) (r : Fin 512) :
    matmul dot_S256x4096_S4096x512_S256x512_1_0_0_1_n_n none l v (constant S256x512 .f32 0x00000000#32) (ix2 p r)
      = ∑ d : Fin 4096, l (ix2 p d) * v (ix2 d r) := by
  simp only [matmul]
  rw [Ideal.matmul_constant_zero_apply, ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 p r) ((contrEquiv1 dot_S256x4096_S4096x512_S256x512_1_0_0_1_n_n 4096 rfl rfl).symm k) = ix2 p k := funext fun a => Fin.ext (by
    match a with
    | ⟨0, _⟩ => exact lhs_proj_0 _ _
    | ⟨1, _⟩ => exact (lhs_proj_1 _ _).trans hk)
  have er : dot_S256x4096_S4096x512_S256x512_1_0_0_1_n_n.rhsIdx (ix2 p r) ((contrEquiv1 dot_S256x4096_S4096x512_S256x512_1_0_0_1_n_n 4096 rfl rfl).symm k) = ix2 k r := funext fun a => Fin.ext (by
    match a with
    | ⟨0, _⟩ => exact (rhs_proj_0 _ _).trans hk
    | ⟨1, _⟩ => exact rhs_proj_1 _ _)
  rw [el, er]

/-! ## The second product: the scaled projection against the rows of U -/

theorem lhs_expand_0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem lhs_expand_1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
theorem rhs_expand_0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem rhs_expand_1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-- Entry (p, o) of the expansion is the sum over the factors r of scaled[p, r] · U[o, r]. -/
theorem expand_apply (l : FVec Ideal S256x512 .bf16) (u : FVec Ideal S4096x512 .bf16) (p : Fin 256) (o : Fin 4096) :
    matmul dot_S256x512_S4096x512_S256x4096_1_1_0_0_n_n none l u (constant S256x4096 .f32 0x00000000#32) (ix2 p o)
      = ∑ r : Fin 512, l (ix2 p r) * u (ix2 o r) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 p o) ((contrEquiv1 dot_S256x512_S4096x512_S256x4096_1_1_0_0_n_n 512 rfl rfl).symm k) = ix2 p k := funext fun a => Fin.ext (by
    match a with
    | ⟨0, _⟩ => exact lhs_expand_0 _ _
    | ⟨1, _⟩ => exact (lhs_expand_1 _ _).trans hk)
  have er : dot_S256x512_S4096x512_S256x4096_1_1_0_0_n_n.rhsIdx (ix2 p o) ((contrEquiv1 dot_S256x512_S4096x512_S256x4096_1_1_0_0_n_n 512 rfl rfl).symm k) = ix2 o k := funext fun a => Fin.ext (by
    match a with
    | ⟨0, _⟩ => exact rhs_expand_0 _ _
    | ⟨1, _⟩ => exact (rhs_expand_1 _ _).trans hk)
  rw [el, er]

/-! ## The σ row broadcast down the 256 rows of the tile -/

/-- The [1, 512] row broadcast to [256, 512], read at (p, r), is the row's entry r. -/
theorem row_apply (s : FVec Ideal S1x512 .f32) (p : Fin 256) (r : Fin 512) :
    broadcastTo S256x512 s broadcasts_S1x512_S256x512 (ix2 p r) = s (ix2 0 r) := by
  exact broadcastTo_apply s broadcasts_S1x512_S256x512 (ix2 p r) (ix2 0 r) (fun a => match a with
    | ⟨0, _⟩ => by show (0 : Nat) = if (1 : Nat) = 1 then 0 else _; rw [if_pos rfl]
    | ⟨1, _⟩ => by show r.val = if (512 : Nat) = 1 then 0 else r.val; rw [if_neg (by decide)])

/-! ## The tile -/

/-- The body's stored value at (p, o): project the block's row p onto the factors, scale by σ, expand by row o of U. -/
theorem tile_apply (xb : Vec Ideal S256x4096 .f32) (vb : Vec Ideal S4096x512 .bf16) (sb : Vec Ideal S1x512 .f32) (ub : Vec Ideal S4096x512 .bf16)
    (p : Fin 256) (o : Fin 4096) :
    k0_pay1 (F := Ideal) xb vb sb ub (ix2 p o)
      = ∑ r : Fin 512, ((∑ d : Fin 4096, xb (ix2 p d) * vb (ix2 d r)) * sb (ix2 0 r)) * ub (ix2 o r) := by
  unfold k0_pay1
  rw [expand_apply]
  refine Finset.sum_congr rfl fun r _ => ?_
  simp only [shapeCast_self]
  refine congrArg (· * ub (ix2 o r)) ?_
  show (matmul dot_S256x4096_S4096x512_S256x512_1_0_0_1_n_n none (truncf (F := Ideal) .bf16 xb bitsLt_bf16_f32) vb (constant (F := Ideal) S256x512 .f32 0x00000000#32) (ix2 p r) : EReal)
      * (broadcastTo S256x512 sb broadcasts_S1x512_S256x512 (ix2 p r) : EReal) = _
  rw [proj_apply, row_apply]
  rfl

end Cert.KernelIdeal.Tile

end
-- ==== Proof.Blocks.lean ====
/-
  The kernel's windows at a grid point t (64 points, one per group of 256 tokens), read as entries of the argument arrays.

  The x window's block at t is rows 256·t … 256·t + 255 of x. The other three windows take their whole arrays at every
  point: V and U after a cast to bf16 on the host, which on the extended reals changes nothing, and σ reshaped from [512]
  to the row [1, 512], whose entry (0, r) is σ[r]. So the tile stored at point t is, at (p, o), the factored form of the
  four arrays at token 256·t + p and output feature o.
-/
import proofs.«121391_j3453153706201_1_alg».proof.Proof.Gen.KernelIdeal.Value
import proofs.«121391_j3453153706201_1_alg».proof.Proof.Tile
import proofs.«121391_j3453153706201_1_alg».proof.Proof.Spec
import Idealize.ShloMosaic.Lib.StableHlo.Run
import Idealize.ShloMosaic.Lib.Pipeline.Value
import Idealize.ShloMosaic.Lib.ValueIdx

noncomputable section

open scoped BigOperators

namespace Cert.KernelIdeal.Blocks

open Idealize.ShloMosaic Idealize.ShloMosaic.TcCoe Idealize.SL.Sem Idealize.ShloMosaic.ValueIdx
open Cert.KernelIdeal Cert.KernelIdeal.Gen Cert.LowRank

variable (m : (ℓ : Loc nD τ sig) → Buf (Elt Ideal) ℓ)

/-! ## The four argument arrays on core c, as arrays of extended reals -/

abbrev argX (c : Dev nD) : STok.Idx → EReal := m ((c : Thread nD τ).loc main_arg0)
abbrev argU (c : Dev nD) : SFac.Idx → EReal := m ((c : Thread nD τ).loc main_arg1)
abbrev argS (c : Dev nD) : SSig.Idx → EReal := m ((c : Thread nD τ).loc main_arg2)
abbrev argV (c : Dev nD) : SFac.Idx → EReal := m ((c : Thread nD τ).loc main_arg3)

/-! ## What the host writes before the region -/

/-- The bf16 copy of V is V. -/
theorem V_castV (c : Dev nD) : (V m c main_v0 : S4096x512.Idx → EReal) = argV m c := by
  dsimp only [Gen.V, Gen.hostOps0]; after_results; rfl

/-- The bf16 copy of U is U. -/
theorem V_castU (c : Dev nD) : (V m c main_v1 : S4096x512.Idx → EReal) = argU m c := by
  dsimp only [Gen.V, Gen.hostOps0]; after_results; rfl

/-- The row [1, 512] is σ reshaped. -/
theorem V_rowS (c : Dev nD) : (V m c main_v2 : S1x512.Idx → EReal) = shapeCast S1x512 (argS m c) shapeCasts_S512_S1x512 := by
  dsimp only [Gen.V, Gen.hostOps0]; after_results; rfl

/-! ## The block indices over the grid -/

/-- The x window and the output window move down one block of rows per point; the other windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each window's block, read -/

/-- Entry (p, d) of the x block at t is x[256·t + p, d]. -/
theorem xblk_apply (c : Dev nD) (t : Fin cfg0.N) (y : S256x4096.Idx) (k : S16384x4096.Idx)
    (hk0 : (k 0).val = t.val * 256 + (y 0).val) (hk1 : (k 1).val = (y 1).val) :
    (iblk m c 0 t : Vec Ideal S256x4096 .f32) y = argX m c k := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 256 + 1 * (y 0).val = (k 0).val; rw [e0, hk0]; omega
  | ⟨1, _⟩ => show win0_0.index t (1 : Fin 2) * 4096 + 1 * (y 1).val = (k 1).val; rw [e1, hk1]; omega

/-- The V window's block at every point is V. -/
theorem vblk_eq (c : Dev nD) (t : Fin cfg0.N) : (iblk m c 1 t : Vec Ideal S4096x512 .bf16) = argV m c := by
  obtain ⟨-, -, e0, e1, -⟩ := idx_facts t
  funext y
  unfold iblk
  rw [View.read_apply]
  show (V m c main_v0 : S4096x512.Idx → EReal) _ = _
  rw [V_castV]
  refine congrArg (argV m c) (funext fun a => Fin.ext ?_)
  match a with
  | ⟨0, _⟩ => show win0_1.index t (0 : Fin 2) * 4096 + 1 * (y 0).val = (y 0).val; rw [e0]; omega
  | ⟨1, _⟩ => show win0_1.index t (1 : Fin 2) * 512 + 1 * (y 1).val = (y 1).val; rw [e1]; omega

/-- The U window's block at every point is U. -/
theorem ublk_eq (c : Dev nD) (t : Fin cfg0.N) : (iblk m c 2 t : Vec Ideal S4096x512 .bf16) = argU m c := by
  obtain ⟨-, -, -, -, e0, e1, -⟩ := idx_facts t
  funext y
  unfold iblk
  rw [View.read_apply]
  show (V m c main_v1 : S4096x512.Idx → EReal) _ = _
  rw [V_castU]
  refine congrArg (argU m c) (funext fun a => Fin.ext ?_)
  match a with
  | ⟨0, _⟩ => show win0_2.index t (0 : Fin 2) * 4096 + 1 * (y 0).val = (y 0).val; rw [e0]; omega
  | ⟨1, _⟩ => show win0_2.index t (1 : Fin 2) * 512 + 1 * (y 1).val = (y 1).val; rw [e1]; omega

/-- Entry (0, r) of the σ window's block at every point is σ[r]. -/
theorem sblk_apply (c : Dev nD) (t : Fin cfg0.N) (r : Fin 512) :
    (iblk m c 3 t : Vec Ideal S1x512 .f32) (ix2 0 r) = argS m c (ix1 r) := by
  obtain ⟨-, -, -, -, -, -, e0, e1, -⟩ := idx_facts t
  unfold iblk
  rw [View.read_apply]
  show (V m c main_v2 : S1x512.Idx → EReal) _ = _
  rw [V_rowS]
  refine shapeCast_apply _ _ _ (ix1 r) ?_
  rw [Shape.rowMajor_val_one, Shape.rowMajor_val_two]
  show r.val = (win0_3.index t (0 : Fin 2) * 1 + 1 * 0) * 512 + (win0_3.index t (1 : Fin 2) * 512 + 1 * r.val)
  rw [e0, e1]; omega

/-! ## The tile at point t -/

/-- The value the body stores at point t, at (p, o), is the factored form at token 256·t + p and output feature o. -/
theorem tile_block (c : Dev nD) (t : Fin cfg0.N) (j : S256x4096.Idx) (i : S16384x4096.Idx)
    (hi0 : (i 0).val = t.val * 256 + (j 0).val) (hi1 : (i 1).val = (j 1).val) :
    k0_pay1 (F := Ideal) (iblk m c 0 t) (iblk m c 1 t) (iblk m c 3 t) (iblk m c 2 t) j
      = factored (argX m c) (argU m c) (argS m c) (argV m c) i := by
  obtain ⟨p, o, rfl⟩ : ∃ (p : Fin 256) (o : Fin 4096), j = ix2 p o := ⟨j 0, j 1, eq_ix2 j⟩
  refine (Tile.tile_apply (iblk m c 0 t) (iblk m c 1 t) (iblk m c 3 t) (iblk m c 2 t) p o).trans ?_
  unfold factored
  refine Finset.sum_congr rfl fun r _ => ?_
  have ho : (ix2 o r : S4096x512.Idx) = ix2 (i 1) r := congrArg (fun z : Fin 4096 => (ix2 z r : S4096x512.Idx)) (Fin.ext hi1).symm
  refine congrArg₂ (· * ·) (congrArg₂ (· * ·) (Finset.sum_congr rfl fun d _ => ?_) (sblk_apply m c t r)) ?_
  · exact congrArg₂ (· * ·) (xblk_apply m c t (ix2 p d) (ix2 (i 0) d) hi0 rfl) (congrFun (vblk_eq m c t) (ix2 d r))
  · exact (congrFun (ublk_eq m c t) (ix2 o r)).trans (congrArg (argU m c) ho)

end Cert.KernelIdeal.Blocks

end
-- ==== Proof.Whole.lean ====
/-
  From tiles to the array. Grid point t writes its [256, 4096] tile back to rows 256·t … 256·t + 255 of the result, and by
  the block reads that tile is the same rows of ONE array: the factored form of the four arguments. Row i of the result
  lies in the block of point i / 256, so the 64 blocks cover the result, which therefore ends holding the factored form.
-/
import proofs.«121391_j3453153706201_1_alg».proof.Proof.Gen.KernelIdeal.Value
import proofs.«121391_j3453153706201_1_alg».proof.Proof.Blocks
import Idealize.ShloMosaic.Lib.Pipeline.Value

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.LowRank

variable (m : (ℓ : Loc nD τ sig) → Buf (Elt Ideal) ℓ) (ρ : Dev nD → PrngReg)

/-- The result the kernel leaves on core c: the factored form of the arguments as launched. -/
abbrev result (c : Dev nD) : S16384x4096.Idx → EReal := factored (argX m c) (argU m c) (argS m c) (argV m c)

theorem zero_offsets : (![0, 0] : Fin 2 → Nat) = fun _ => 0 := funext fun a => by fin_cases a <;> rfl

/-- What point t writes back is its block of rows of `result`. -/
theorem flushed_eq (c : Dev nD) (t : Fin cfg0.N) :
    (dats m 0 c).flushed 4 t = ((cfg0.win 4).blk t).view.read (Elt Ideal) (result m c) := by
  obtain ⟨-, -, -, -, -, -, -, -, e0, e1⟩ := idx_facts t
  rw [Value.flushed4]
  unfold out0_4
  rw [View.canon_unit_zero zero_offsets]
  simp only [View.ld_unit_zero (S := S256x4096) zero_offsets, View.ld_unit_zero (S := S4096x512) zero_offsets,
    View.ld_unit_zero (S := S1x512) zero_offsets]
  funext j
  rw [View.read_apply]
  refine tile_block m c t j _ ?_ ?_
  · show win0_4.index t (0 : Fin 2) * 256 + 1 * (j 0).val = t.val * 256 + (j 0).val; rw [e0]; omega
  · show win0_4.index t (1 : Fin 2) * 4096 + 1 * (j 1).val = (j 1).val; rw [e1]; omega

/-- An index of the result is in point t's block iff each coordinate is in the block's range on its axis. -/
theorem mem_blk (t : Fin cfg0.N) (i : S16384x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v3).slice (win0_4.rect t)).set ↔ _
  rw [View.set_slice_whole, Rect.mem_set_unit]
  exact Iff.rfl

/-- Row i of the result is written back by point i / 256. -/
theorem cover (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 64 := N_0
  have hq : (i 0).val / 256 < cfg0.N := by rw [hN]; omega
  refine ⟨⟨(i 0).val / 256, hq⟩, flush0_4 _, ?_⟩
  obtain ⟨-, -, -, -, -, -, -, -, e0, e1⟩ := idx_facts ⟨(i 0).val / 256, hq⟩
  rw [mem_blk]
  intro a
  match a with
  | ⟨0, _⟩ =>
    show win0_4.index ⟨(i 0).val / 256, hq⟩ (0 : Fin 2) * 256 ≤ (i 0).val ∧ (i 0).val < win0_4.index ⟨(i 0).val / 256, hq⟩ (0 : Fin 2) * 256 + 256
    rw [e0]
    show (i 0).val / 256 * 256 ≤ (i 0).val ∧ (i 0).val < (i 0).val / 256 * 256 + 256
    omega
  | ⟨1, _⟩ =>
    show win0_4.index ⟨(i 0).val / 256, hq⟩ (1 : Fin 2) * 4096 ≤ (i 1).val ∧ (i 1).val < win0_4.index ⟨(i 0).val / 256, hq⟩ (1 : Fin 2) * 4096 + 4096
    rw [e1]
    omega

/-- After the run the result array holds `result`. -/
theorem final (c : Dev nD) : (dats m 0 c).arrAt 4 cfg0.N = result m c :=
  (dats m 0 c).arrAt_eq_of_cover 4 (result m c) (fun t _ => flushed_eq m c t) cover

/-- The kernel's run, read: it terminates with the result array at the factored form and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefDense.lean ====
/-
  The reference, read at an index. Its program scales column r of U by σ[r], multiplies by Vᵀ to get W [4096, 4096],
  transposes, and multiplies x by the result: entry (t, o) is Σ_d x[t, d] · W[o, d] with
  W[o, d] = Σ_r (U[o, r] · σ[r]) · V[d, r]. That is the dense form of the specification; the generated stage lemmas give
  each operation at an index, and the composed index maps are the coordinate constructors.
-/
import proofs.«121391_j3453153706201_1_alg».proof.Proof.Gen.ReferenceIdeal.Read
import proofs.«121391_j3453153706201_1_alg».proof.Proof.Spec
import Idealize.ShloMosaic.Lib.ValueIdx

noncomputable section

open scoped BigOperators

namespace Cert.ReferenceIdeal.Whole

open Idealize.ShloMosaic Idealize.ShloMosaic.ValueIdx
open Cert.ReferenceIdeal Cert.ReferenceIdeal.Read Cert.LowRank

/-- The reference's result array is the dense form of its four arguments. -/
theorem ref_eq_dense (x : FVec Ideal S16384x4096 .f32) (u : FVec Ideal S4096x512 .f32) (s : FVec Ideal S512 .f32) (v : FVec Ideal S4096x512 .f32) :
    val_main_v6 (F := Ideal) x u s v = dense x u s v := by
  funext i
  rw [val_main_v6_apply]
  unfold dense
  refine Finset.sum_congr rfl fun d _ => ?_
  have el : lidx_main_v6 i d = ix2 (i 0) d := funext fun a => Fin.ext (by
    match a with
    | ⟨0, _⟩ => rfl
    | ⟨1, _⟩ => rfl)
  rw [el, val_main_v5_apply, val_main_v4_apply]
  refine congrArg (x (ix2 (i 0) d) * ·) (Finset.sum_congr rfl fun r _ => ?_)
  rw [val_main_v2_apply, val_main_v1_apply, val_main_v0_apply, val_main_v3_apply]
  have e1 : lidx_main_v4 (idx_main_v5 (ridx_main_v6 i d)) r = ix2 (i 1) r := funext fun a => Fin.ext (by
    match a with
    | ⟨0, _⟩ => rfl
    | ⟨1, _⟩ => rfl)
  have e2 : idx_main_v0 (idx_main_v1 (lidx_main_v4 (idx_main_v5 (ridx_main_v6 i d)) r)) = ix1 r := funext fun a => Fin.ext (by
    match a with
    | ⟨0, _⟩ => rfl)
  have e3 : idx_main_v3 (ridx_main_v4 (idx_main_v5 (ridx_main_v6 i d)) r) = ix2 d r := funext fun a => Fin.ext (by
    match a with
    | ⟨0, _⟩ => rfl
    | ⟨1, _⟩ => rfl)
  rw [e1, e2, e3]
  rfl

end Cert.ReferenceIdeal.Whole

end
-- ==== Proof.lean ====
/-
  A low-rank linear layer: out = x · Wᵀ with W = U · diag(σ) · Vᵀ, x of shape [16384, 4096], U and V [4096, 512], σ [512].

  The kernel never forms W. For each group of 256 tokens it projects the rows of x onto the 512 factors (x · V), scales
  factor r by σ[r], and expands by Uᵀ: out[t, o] = Σ_r ((Σ_d x[t, d] · V[d, r]) · σ[r]) · U[o, r]. Its bf16 casts are the
  identity on the extended reals, and its two matrix products into zero accumulators are plain sums. The reference forms
  W[o, d] = Σ_r (U[o, r] · σ[r]) · V[d, r] and then out[t, o] = Σ_d x[t, d] · W[o, d].

  Both are the double sum over d and r of x[t, d] · V[d, r] · σ[r] · U[o, r]; they differ only in which sum is taken first.
  Passing from one to the other uses that multiplication distributes over a finite sum, which holds on the reals but can
  fail on the extended reals at the infinities; the precondition (every entry of every argument finite) is what licenses it.

  Modules: Spec (the two forms and the law between them), Finite (the precondition read back as "every entry is real"),
  Tile (the kernel body's stored value at an index), Blocks (each window's block as entries of the arguments), Whole (the
  blocks cover the result, so it holds the factored form), RefDense (the reference's result is the dense form).
  The three frame claims are the generated frames and the reference's generated run; the kernel's idealization rewrote
  nothing, so the preservation claim is trivial.
-/
import proofs.«121391_j3453153706201_1_alg».proof.Defs
import proofs.«121391_j3453153706201_1_alg».proof.Proof.Gen.Kernel
import proofs.«121391_j3453153706201_1_alg».proof.Proof.Gen.Kernel.Skeleton
import proofs.«121391_j3453153706201_1_alg».proof.Proof.Gen.Kernel.Launch
import proofs.«121391_j3453153706201_1_alg».proof.Proof.Gen.Kernel.Points
import proofs.«121391_j3453153706201_1_alg».proof.Proof.Gen.Kernel.Frame
import proofs.«121391_j3453153706201_1_alg».proof.Proof.Gen.KernelIdeal
import proofs.«121391_j3453153706201_1_alg».proof.Proof.Gen.KernelIdeal.Skeleton
import proofs.«121391_j3453153706201_1_alg».proof.Proof.Gen.KernelIdeal.Launch
import proofs.«121391_j3453153706201_1_alg».proof.Proof.Gen.KernelIdeal.Points
import proofs.«121391_j3453153706201_1_alg».proof.Proof.Gen.KernelIdeal.Frame
import proofs.«121391_j3453153706201_1_alg».proof.Proof.Gen.KernelIdeal.Value
import proofs.«121391_j3453153706201_1_alg».proof.Proof.Gen.ReferenceIdeal
import proofs.«121391_j3453153706201_1_alg».proof.Proof.Gen.ReferenceIdeal.Run
import proofs.«121391_j3453153706201_1_alg».proof.Proof.Gen.ReferenceIdeal.Read
import proofs.«121391_j3453153706201_1_alg».proof.Proof.Gen.Pre_finite_inputs
import proofs.«121391_j3453153706201_1_alg».proof.Proof.Spec
import proofs.«121391_j3453153706201_1_alg».proof.Proof.Finite
import proofs.«121391_j3453153706201_1_alg».proof.Proof.Whole
import proofs.«121391_j3453153706201_1_alg».proof.Proof.RefDense
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, the kernel ends at the factored form and the reference at the dense form of
    the same four arrays, and on arrays of reals the two forms are one function. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Whole.ref_eq_dense,
    (hagree c).1, (hagree c).2.1, (hagree c).2.2.1, (hagree c).2.2.2]
  obtain ⟨hx, hu, hs, hv⟩ := Cert.Finite.reals_of_pre _ _ _ _ (hpre c)
  exact (Cert.LowRank.factored_eq_dense _ _ _ _ hx hu hs hv).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
